-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x8 : Shape := ⟨2, ![100000, 8]⟩
abbrev S2x6400000 : Shape := ⟨2, ![2, 6400000]⟩
abbrev S100000 : Shape := ⟨1, ![100000]⟩
abbrev S18x32 : Shape := ⟨2, ![18, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S100000 : S_.BroadcastsInDim S100000 (![] : Fin 0 → Fin S100000.rank)
  reducesTo_S100000_S_d0 : S100000.ReducesTo [0] S_
  bcast_S_S18x32 : S_.BroadcastsInDim S18x32 (![] : Fin 0 → Fin S18x32.rank)
  reducesTo_S18x32_S_d0_1 : S18x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32x1 .f32) (main_arg6 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x1 .f32 := Host.absf main_arg5
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x8 .f32) (main_arg1 : IVec S2x6400000 32) (main_arg2 : FVec F S100000 .f32) (main_arg3 : FVec F S18x32 .f32) (main_arg4 : FVec F S32 .f32) (main_arg5 : FVec F S32x1 .f32) (main_arg6 : FVec F S1 .f32) : IVec S_ 1 :=
  let main_v0 : FVec F S100000x8 .f32 := Host.absf main_arg0
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S100000 .f32 := Host.absf main_arg2
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S18x32 .f32 := Host.absf main_arg3
  let main_cst_2 : FVec F S_ .f32 := constant S_ .f32 0x7F800000#32
  let main_v10 : FVec F S18x32 .f32 := broadcastInDim S18x32 ![] bcast_S_S18x32 main_cst_2
  let main_v11 : IVec S18x32 1 := cmpf .olt main_v9 main_v10
  let main_c_3 : IVec S_ 1 := constantI S_ 1 1#1
  let main_v12 : IVec S_ 1 := (fun x v => Host.reduce IntOp.andi x v reducesTo_S18x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_v13 main_v16
-- ==== Kernel.lean ====
abbrev S100000x8 : Shape := ⟨2, ![100000, 8]⟩
abbrev S2x6400000 : Shape := ⟨2, ![2, 6400000]⟩
abbrev S100000 : Shape := ⟨1, ![100000]⟩
abbrev S18x32 : Shape := ⟨2, ![18, 32]⟩
abbrev S32 : Shape := ⟨1, ![32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x8 : Shape := ⟨2, ![6400000, 8]⟩
abbrev S6400000x18 : Shape := ⟨2, ![6400000, 18]⟩
abbrev S51200x18 : Shape := ⟨2, ![51200, 18]⟩
abbrev S51200 : Shape := ⟨1, ![51200]⟩
abbrev S51200x32 : Shape := ⟨2, ![51200, 32]⟩
abbrev S1x32 : Shape := ⟨2, ![1, 32]⟩
abbrev S51200x1 : Shape := ⟨2, ![51200, 1]⟩
abbrev S1x1 : Shape := ⟨2, ![1, 1]⟩

abbrev nBuf : Space → Nat
  | .hbm => 51
  | .vmem => 8
  | .smem => 0
  | _ => 0

abbrev bufTy : (tb : Table) → Fin (tcTables nBuf tb) → BufTy
  | .hbm, ⟨0, _⟩ => ⟨S100000x8, .f32⟩
  | .hbm, ⟨1, _⟩ => ⟨S2x6400000, .i32⟩
  | .hbm, ⟨2, _⟩ => ⟨S100000, .f32⟩
  | .hbm, ⟨3, _⟩ => ⟨S18x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x6400000, .i32⟩
  | .hbm, ⟨8, _⟩ => ⟨S6400000, .i32⟩
  | .hbm, ⟨9, _⟩ => ⟨S1x6400000, .i32⟩
  | .hbm, ⟨10, _⟩ => ⟨S6400000, .i32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x8, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S6400000x8, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000, .f32⟩
  | .hbm, ⟨38, _⟩ => ⟨S6400000x1, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000, .f32⟩
  | .hbm, ⟨48, _⟩ => ⟨S6400000x1, .f32⟩
  | .hbm, ⟨49, _⟩ => ⟨S6400000x18, .f32⟩
  | .hbm, ⟨50, _⟩ => ⟨S6400000, .f32⟩
  | .local _ .vmem, ⟨0, _⟩ => ⟨S51200x18, .f32⟩
  | .local _ .vmem, ⟨1, _⟩ => ⟨S51200x18, .f32⟩
  | .local _ .vmem, ⟨2, _⟩ => ⟨S18x32, .f32⟩
  | .local _ .vmem, ⟨3, _⟩ => ⟨S32, .f32⟩
  | .local _ .vmem, ⟨4, _⟩ => ⟨S32x1, .f32⟩
  | .local _ .vmem, ⟨5, _⟩ => ⟨S1, .f32⟩
  | .local _ .vmem, ⟨6, _⟩ => ⟨S51200, .f32⟩
  | .local _ .vmem, ⟨7, _⟩ => ⟨S51200, .f32⟩
  | _, _ => ⟨S100000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S51200x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S51200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x8_S6400000x8_S6400000x1_S6400000x1_S6400000x18_d1 : Shape.Concatenates [S6400000x8, S6400000x8, S6400000x1, S6400000x1] S6400000x18 1
  inb_S51200x18_S51200x18_0_0 : ∀ a, (![0, 0] : Fin 2 → Nat) a + S51200x18.size a ≤ S51200x18.size a
  h_S51200x18 : 0 < S51200x18.numel
  shapeCasts_S51200x18_S51200x18 : S51200x18.ShapeCasts S51200x18
  bitsLt_bf16_f32 : FTy.bits .bf16 < FTy.bits .f32
  inb_S18x32_S18x32_0_0 : ∀ a, (![0, 0] : Fin 2 → Nat) a + S18x32.size a ≤ S18x32.size a
  h_S18x32 : 0 < S18x32.numel
  inb_S32_S32_0 : ∀ a, (![0] : Fin 1 → Nat) a + S32.size a ≤ S32.size a
  h_S32 : 0 < S32.numel
  shapeCasts_S32_S1x32 : S32.ShapeCasts S1x32
  broadcasts_S1x32_S51200x32 : S1x32.Broadcasts S51200x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S51200x1 : S1x1.Broadcasts S51200x1
  shapeCasts_S51200x1_S51200 : S51200x1.ShapeCasts S51200
  inb_S51200_S51200_0 : ∀ a, (![0] : Fin 1 → Nat) a + S51200.size a ≤ S51200.size a
  h_S51200 : 0 < S51200.numel
  gather_S100000x8_S6400000x1_S6400000x8_1_0_n_n_0_1_18_wf : GatherDims.WF S100000x8 S6400000x1 S6400000x8 [1] [0] [] [0] [] 1 ![1, 8]
  gather_S100000_S6400000x1_S6400000_n_0_n_n_0_1_1_wf : GatherDims.WF S100000 S6400000x1 S6400000 [] [0] [] [0] [] 1 ![1]
  dot_S51200x18_S18x32_S51200x32_1_0_0_1_n_n_wf : DotDims.WF S51200x18 S18x32 S51200x32 [1] [0] [0] [1] [] []
  dot_S51200x32_S32x1_S51200x1_1_0_0_1_n_n_wf : DotDims.WF S51200x32 S32x1 S51200x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S51200x18.size a ≤ S6400000x18.size a
  hwx0_0 : ∀ i : grid0.Coords, EltTy.bits .f32 = 32 ∨ (Rect.block (s := S6400000x18) S51200x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x32.size a ≤ S18x32.size a
  hwx0_1 : ∀ i : grid0.Coords, EltTy.bits .f32 = 32 ∨ (Rect.block (s := S18x32) S18x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S51200.size a ≤ S6400000.size a
  hwx0_5 : ∀ i : grid0.Coords, EltTy.bits .f32 = 32 ∨ (Rect.block (s := S6400000) S51200.size (cc0_transform_5 i) (hinb0_5 i)).WholeWords (EltTy.packing .f32)

variable [Facts₀]

def gather_S100000x8_S6400000x1_S6400000x8_1_0_n_n_0_1_18 : GatherDims S100000x8 S6400000x1 S6400000x8 where
  offsetDims := [1]
  collapsedSliceDims := [0]
  operandBatchingDims := []
  startIndicesBatchingDims := []
  startIndexMap := [0]
  indexVectorDim := 1
  sliceSizes := ![1, 8]
  wf := gather_S100000x8_S6400000x1_S6400000x8_1_0_n_n_0_1_18_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def dot_S51200x18_S18x32_S51200x32_1_0_0_1_n_n : DotDims S51200x18 S18x32 S51200x32 where
  lhsContracting := [1]
  rhsContracting := [0]
  lhsNonContracting := [0]
  rhsNonContracting := [1]
  lhsBatch := []
  rhsBatch := []
  wf := dot_S51200x18_S18x32_S51200x32_1_0_0_1_n_n_wf
def dot_S51200x32_S32x1_S51200x1_1_0_0_1_n_n : DotDims S51200x32 S32x1 S51200x1 where
  lhsContracting := [1]
  rhsContracting := [0]
  lhsNonContracting := [0]
  rhsNonContracting := [1]
  lhsBatch := []
  rhsBatch := []
  wf := dot_S51200x32_S32x1_S51200x1_1_0_0_1_n_n_wf

abbrev win0_0 : Pipeline.Window sig grid0 :=
  Pipeline.Window.ofSpec (Memref.whole main_v34) S51200x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S18x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v35) S51200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x8 : Shape := ⟨2, ![100000, 8]⟩
abbrev S2x6400000 : Shape := ⟨2, ![2, 6400000]⟩
abbrev S100000 : Shape := ⟨1, ![100000]⟩
abbrev S18x32 : Shape := ⟨2, ![18, 32]⟩
abbrev S32 : Shape := ⟨1, ![32]⟩
abbrev S32x1 : Shape := ⟨2, ![32, 1]⟩
abbrev S1 : Shape := ⟨1, ![1]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x8 : Shape := ⟨2, ![6400000, 8]⟩
abbrev S6400000x18 : Shape := ⟨2, ![6400000, 18]⟩
abbrev S6400000x32 : Shape := ⟨2, ![6400000, 32]⟩
abbrev S1x32 : Shape := ⟨2, ![1, 32]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S100000x8, .f32⟩
  | .hbm, ⟨1, _⟩ => ⟨S2x6400000, .i32⟩
  | .hbm, ⟨2, _⟩ => ⟨S100000, .f32⟩
  | .hbm, ⟨3, _⟩ => ⟨S18x32, .f32⟩
  | .hbm, ⟨4, _⟩ => ⟨S32, .f32⟩
  | .hbm, ⟨5, _⟩ => ⟨S32x1, .f32⟩
  | .hbm, ⟨6, _⟩ => ⟨S1, .f32⟩
  | .hbm, ⟨7, _⟩ => ⟨S1x6400000, .i32⟩
  | .hbm, ⟨8, _⟩ => ⟨S6400000, .i32⟩
  | .hbm, ⟨9, _⟩ => ⟨S1x6400000, .i32⟩
  | .hbm, ⟨10, _⟩ => ⟨S6400000, .i32⟩
  | .hbm, ⟨11, _⟩ => ⟨S_, .i32⟩
  | .hbm, ⟨12, _⟩ => ⟨S6400000, .i32⟩
  | .hbm, ⟨13, _⟩ => ⟨S6400000, .i1⟩
  | .hbm, ⟨14, _⟩ => ⟨S_, .i32⟩
  | .hbm, ⟨15, _⟩ => ⟨S6400000, .i32⟩
  | .hbm, ⟨16, _⟩ => ⟨S6400000, .i32⟩
  | .hbm, ⟨17, _⟩ => ⟨S6400000, .i32⟩
  | .hbm, ⟨18, _⟩ => ⟨S6400000x1, .i32⟩
  | .hbm, ⟨19, _⟩ => ⟨S6400000x8, .f32⟩
  | .hbm, ⟨20, _⟩ => ⟨S_, .i32⟩
  | .hbm, ⟨21, _⟩ => ⟨S6400000, .i32⟩
  | .hbm, ⟨22, _⟩ => ⟨S6400000, .i1⟩
  | .hbm, ⟨23, _⟩ => ⟨S_, .i32⟩
  | .hbm, ⟨24, _⟩ => ⟨S6400000, .i32⟩
  | .hbm, ⟨25, _⟩ => ⟨S6400000, .i32⟩
  | .hbm, ⟨26, _⟩ => ⟨S6400000, .i32⟩
  | .hbm, ⟨27, _⟩ => ⟨S6400000x1, .i32⟩
  | .hbm, ⟨28, _⟩ => ⟨S6400000x8, .f32⟩
  | .hbm, ⟨29, _⟩ => ⟨S_, .i32⟩
  | .hbm, ⟨30, _⟩ => ⟨S6400000, .i32⟩
  | .hbm, ⟨31, _⟩ => ⟨S6400000, .i1⟩
  | .hbm, ⟨32, _⟩ => ⟨S_, .i32⟩
  | .hbm, ⟨33, _⟩ => ⟨S6400000, .i32⟩
  | .hbm, ⟨34, _⟩ => ⟨S6400000, .i32⟩
  | .hbm, ⟨35, _⟩ => ⟨S6400000, .i32⟩
  | .hbm, ⟨36, _⟩ => ⟨S6400000x1, .i32⟩
  | .hbm, ⟨37, _⟩ => ⟨S6400000, .f32⟩
  | .hbm, ⟨38, _⟩ => ⟨S6400000x1, .f32⟩
  | .hbm, ⟨39, _⟩ => ⟨S_, .i32⟩
  | .hbm, ⟨40, _⟩ => ⟨S6400000, .i32⟩
  | .hbm, ⟨41, _⟩ => ⟨S6400000, .i1⟩
  | .hbm, ⟨42, _⟩ => ⟨S_, .i32⟩
  | .hbm, ⟨43, _⟩ => ⟨S6400000, .i32⟩
  | .hbm, ⟨44, _⟩ => ⟨S6400000, .i32⟩
  | .hbm, ⟨45, _⟩ => ⟨S6400000, .i32⟩
  | .hbm, ⟨46, _⟩ => ⟨S6400000x1, .i32⟩
  | .hbm, ⟨47, _⟩ => ⟨S6400000, .f32⟩
  | .hbm, ⟨48, _⟩ => ⟨S6400000x1, .f32⟩
  | .hbm, ⟨49, _⟩ => ⟨S6400000x18, .f32⟩
  | .hbm, ⟨50, _⟩ => ⟨S6400000x32, .f32⟩
  | .hbm, ⟨51, _⟩ => ⟨S1x32, .f32⟩
  | .hbm, ⟨52, _⟩ => ⟨S6400000x32, .f32⟩
  | .hbm, ⟨53, _⟩ => ⟨S6400000x32, .f32⟩
  | .hbm, ⟨54, _⟩ => ⟨S_, .f32⟩
  | .hbm, ⟨55, _⟩ => ⟨S6400000x32, .f32⟩
  | .hbm, ⟨56, _⟩ => ⟨S6400000x32, .f32⟩
  | .hbm, ⟨57, _⟩ => ⟨S6400000x1, .f32⟩
  | .hbm, ⟨58, _⟩ => ⟨S1x1, .f32⟩
  | .hbm, ⟨59, _⟩ => ⟨S6400000x1, .f32⟩
  | .hbm, ⟨60, _⟩ => ⟨S6400000x1, .f32⟩
  | .hbm, ⟨61, _⟩ => ⟨S6400000x1, .f32⟩
  | .hbm, ⟨62, _⟩ => ⟨S6400000x1, .f32⟩
  | .hbm, ⟨63, _⟩ => ⟨S_, .f32⟩
  | .hbm, ⟨64, _⟩ => ⟨S6400000x1, .f32⟩
  | .hbm, ⟨65, _⟩ => ⟨S6400000x1, .f32⟩
  | .hbm, ⟨66, _⟩ => ⟨S_, .f32⟩
  | .hbm, ⟨67, _⟩ => ⟨S6400000x1, .f32⟩
  | .hbm, ⟨68, _⟩ => ⟨S6400000x1, .f32⟩
  | .hbm, ⟨69, _⟩ => ⟨S6400000, .f32⟩
  | _, _ => ⟨S100000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_cst : Ref sig .tc := ⟨.hbm, 54, rfl⟩
abbrev main_call0_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x8_S6400000x8_S6400000x1_S6400000x1_S6400000x18_d1 : Shape.Concatenates [S6400000x8, S6400000x8, S6400000x1, S6400000x1] S6400000x18 1
  bcast_S32_S1x32_1 : S32.BroadcastsInDim S1x32 (![1] : Fin 1 → Fin S1x32.rank)
  bcast_S1x32_S6400000x32_0_1 : S1x32.BroadcastsInDim S6400000x32 (![0, 1] : Fin 2 → Fin S6400000x32.rank)
  bcast_S_S6400000x32 : S_.BroadcastsInDim S6400000x32 (![] : Fin 0 → Fin S6400000x32.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  bcast_S_S6400000x1 : S_.BroadcastsInDim S6400000x1 (![] : Fin 0 → Fin S6400000x1.rank)
  shapeCasts_S6400000x1_S6400000 : S6400000x1.ShapeCasts S6400000
  gather_S100000x8_S6400000x1_S6400000x8_1_0_n_n_0_1_18_wf : GatherDims.WF S100000x8 S6400000x1 S6400000x8 [1] [0] [] [0] [] 1 ![1, 8]
  gather_S100000_S6400000x1_S6400000_n_0_n_n_0_1_1_wf : GatherDims.WF S100000 S6400000x1 S6400000 [] [0] [] [0] [] 1 ![1]
  dot_S6400000x18_S18x32_S6400000x32_1_0_0_1_n_n_wf : DotDims.WF S6400000x18 S18x32 S6400000x32 [1] [0] [0] [1] [] []
  dot_S6400000x32_S32x1_S6400000x1_1_0_0_1_n_n_wf : DotDims.WF S6400000x32 S32x1 S6400000x1 [1] [0] [0] [1] [] []

variable [Facts₀]

def gather_S100000x8_S6400000x1_S6400000x8_1_0_n_n_0_1_18 : GatherDims S100000x8 S6400000x1 S6400000x8 where
  offsetDims := [1]
  collapsedSliceDims := [0]
  operandBatchingDims := []
  startIndicesBatchingDims := []
  startIndexMap := [0]
  indexVectorDim := 1
  sliceSizes := ![1, 8]
  wf := gather_S100000x8_S6400000x1_S6400000x8_1_0_n_n_0_1_18_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def dot_S6400000x18_S18x32_S6400000x32_1_0_0_1_n_n : DotDims S6400000x18 S18x32 S6400000x32 where
  lhsContracting := [1]
  rhsContracting := [0]
  lhsNonContracting := [0]
  rhsNonContracting := [1]
  lhsBatch := []
  rhsBatch := []
  wf := dot_S6400000x18_S18x32_S6400000x32_1_0_0_1_n_n_wf
def dot_S6400000x32_S32x1_S6400000x1_1_0_0_1_n_n : DotDims S6400000x32 S32x1 S6400000x1 where
  lhsContracting := [1]
  rhsContracting := [0]
  lhsNonContracting := [0]
  rhsNonContracting := [1]
  lhsBatch := []
  rhsBatch := []
  wf := dot_S6400000x32_S32x1_S6400000x1_1_0_0_1_n_n_wf

class Facts : Prop extends Facts₀ where

variable [Facts]
-- ==== Proof.KernelTiles.lean ====
/-
  The frame of the edge-scoring program: every weakly fair execution ends, nothing faults, and the seven argument
  arrays end as they began.

  The program first builds, on the host, the edge feature matrix (for each of the 6 400 000 edges the two endpoint
  embeddings and the two endpoint mask values, gathered and laid side by side: 18 columns), then scores the edges in
  125 tiles of 51 200 rows.  One tile's body reads its tile of features and the four small parameter arrays, and
  overwrites the whole of its output tile with one value computed from what it read; it also reads the output tile
  before overwriting it, and that value is dropped.  So after the body the output tile holds the tile's score vector
  (`tileOut`), whatever it held before, and every input buffer is as it was.  The pipeline's bookkeeping then gives
  the run: the output array is written tile by tile, no other array is written, and the argument arrays are not
  among the buffers the host operations write.
  Everything here is stated for any float instance `F`.
-/
import proofs.«165301_j42649025249599_1_alg».proof.Proof.Gen.Kernel.Launch
import proofs.«165301_j42649025249599_1_alg».proof.Proof.Gen.Kernel.Skeleton
import proofs.«165301_j42649025249599_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the tiles -/

/-- What core `c`'s buffers hold when the tiles start: the launch memory after the 43 host operations that build
    the feature matrix. -/
abbrev entry (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is those host operations and then the tiled region. -/
theorem main_is_prefix_then_tiles (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes argument 0: the tiles find it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1: the tiles find it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2: the tiles find it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3: the tiles find it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4: the tiles find it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5: the tiles find it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 6: the tiles find it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## A window's tile -/

/-- Window `w`'s block at tile `t`, read off its array as the tiles find it. -/
def tileOf (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's staging buffer holds its block at every tile, fetched there or kept from the tile before. -/
theorem staged0_of {c : Dev nD} (dat : Dat τ (Elt F) Unit ℕ (UR sig nD τ) ℕ cfg0 c) (hA : dat.A 0 = entry m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- Input window 1's staging buffer holds its block at every tile, fetched there or kept from the tile before. -/
theorem staged1_of {c : Dev nD} (dat : Dat τ (Elt F) Unit ℕ (UR sig nD τ) ℕ cfg0 c) (hA : dat.A 1 = entry m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- Input window 2's staging buffer holds its block at every tile, fetched there or kept from the tile before. -/
theorem staged2_of {c : Dev nD} (dat : Dat τ (Elt F) Unit ℕ (UR sig nD τ) ℕ cfg0 c) (hA : dat.A 2 = entry m c (Pipeline.arrRef spec0 2))
    (hafter : ∀ t, dat.after 2 t = tileOf m c 2 t) (t : Fin cfg0.N) (d) : dat.before 2 t d = tileOf m c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)
/-- Input window 3's staging buffer holds its block at every tile, fetched there or kept from the tile before. -/
theorem staged3_of {c : Dev nD} (dat : Dat τ (Elt F) Unit ℕ (UR sig nD τ) ℕ cfg0 c) (hA : dat.A 3 = entry m c (Pipeline.arrRef spec0 3))
    (hafter : ∀ t, dat.after 3 t = tileOf m c 3 t) (t : Fin cfg0.N) (d) : dat.before 3 t d = tileOf m c 3 t :=
  (dat.before_in_eq_fetched 3 rfl (fun _ => rfl) (fun _ _ _ => rfl) (fun t => by rw [hafter]; unfold Dat.blockOf tileOf; rw [hA]; try rfl) t d).trans
    (by unfold Dat.fetched Dat.blockOf tileOf; rw [hA]; try rfl)
/-- Input window 4's staging buffer holds its block at every tile, fetched there or kept from the tile before. -/
theorem staged4_of {c : Dev nD} (dat : Dat τ (Elt F) Unit ℕ (UR sig nD τ) ℕ cfg0 c) (hA : dat.A 4 = entry m c (Pipeline.arrRef spec0 4))
    (hafter : ∀ t, dat.after 4 t = tileOf m c 4 t) (t : Fin cfg0.N) (d) : dat.before 4 t d = tileOf m c 4 t :=
  (dat.before_in_eq_fetched 4 rfl (fun _ => rfl) (fun _ _ _ => rfl) (fun t => by rw [hafter]; unfold Dat.blockOf tileOf; rw [hA]; try rfl) t d).trans
    (by unfold Dat.fetched Dat.blockOf tileOf; rw [hA]; try rfl)

/-! ## From the pipeline's post to the claim's -/

/-- A run that ends with every window's array where the pipeline's bookkeeping puts it and every other buffer as
    the tiles found it leaves the seven arguments as launched: arguments 3 to 6 are input windows' arrays, never
    written back; arguments 0 to 2 are no window's array; and the host operations wrote none of the seven. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).1 1).trans (((dats 0 c).arrAt_in 1 rfl _).trans ((hA c 1).trans (entry_arg3 m c))),
      ((h c).1 2).trans (((dats 0 c).arrAt_in 2 rfl _).trans ((hA c 2).trans (entry_arg4 m c))),
      ((h c).1 3).trans (((dats 0 c).arrAt_in 3 rfl _).trans ((hA c 3).trans (entry_arg5 m c))),
      ((h c).1 4).trans (((dats 0 c).arrAt_in 4 rfl _).trans ((hA c 4).trans (entry_arg6 m c)))⟩) h

/-! ## One tile's body -/

/-- The whole of a feature tile, of each parameter array, and of an output tile. -/
abbrev wholeFeat : Rect S51200x18 := Rect.unit (s := S51200x18) ![0, 0] S51200x18.size inb_S51200x18_S51200x18_0_0
abbrev wholeW1 : Rect S18x32 := Rect.unit (s := S18x32) ![0, 0] S18x32.size inb_S18x32_S18x32_0_0
abbrev wholeB1 : Rect S32 := Rect.unit (s := S32) ![0] S32.size inb_S32_S32_0
abbrev wholeW2 : Rect S32x1 := Rect.unit (s := S32x1) ![0, 0] S32x1.size inb_S32x1_S32x1_0_0
abbrev wholeB2 : Rect S1 := Rect.unit (s := S1) ![0] S1.size inb_S1_S1_0
abbrev wholeOut : Rect S51200 := Rect.unit (s := S51200) ![0] S51200.size inb_S51200_S51200_0

/-- What the body leaves in the output tile's buffer: its one store, of the score vector of what it loaded. -/
def tileOut (x0 : Vec F S51200x18 .f32) (x1 : Vec F S18x32 .f32) (x2 : Vec F S32 .f32) (x3 : Vec F S32x1 .f32) (x4 : Vec F S1 .f32) :
    Vec F S51200 .f32 :=
  View.canon [⟨wholeOut, k0_pay1 (View.ld x0 wholeFeat) (View.ld x1 wholeW1) (View.ld x2 wholeB1) (View.ld x3 wholeW2) (View.ld x4 wholeB2)⟩]

/-- The one store covers the output tile. -/
theorem tileOut_covered (p0 : Vec F S51200 .f32) (y : S51200.Idx) :
    ∃ pc ∈ ([⟨wholeOut, p0⟩] : List (View.Piece (Elt F) S51200 .f32)), y ∈ pc.1.set :=
  View.cover_of_tiled [⟨wholeOut, p0⟩] S51200.size (by rfl) y

set_option maxHeartbeats 1000000 in
/-- The body, on whole buffers holding `x0 … x4` and an output buffer holding anything, ends with the inputs as they
    were and the output buffer at `tileOut`. -/
theorem body_runs (c : Dev nD) (E : Set ℕ) (i : grid0.Coords)
    (arg1 : Memref sig .tc .vmem S51200x18 .f32) (harg1 : arg1.IsWhole) (arg2 : Memref sig .tc .vmem S18x32 .f32) (harg2 : arg2.IsWhole)
    (arg3 : Memref sig .tc .vmem S32 .f32) (harg3 : arg3.IsWhole) (arg4 : Memref sig .tc .vmem S32x1 .f32) (harg4 : arg4.IsWhole)
    (arg5 : Memref sig .tc .vmem S1 .f32) (harg5 : arg5.IsWhole) (arg6 : Memref sig .tc .vmem S51200 .f32) (harg6 : arg6.IsWhole)
    (x0 : Vec F S51200x18 .f32) (x1 : Vec F S18x32 .f32) (x2 : Vec F S32 .f32) (x3 : Vec F S32x1 .f32) (x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_covered _)

/-! ## The pipeline's bookkeeping -/

/-- On core `c`: the arrays as the tiles find them; after the body at tile `t` each input's buffer still at its
    block and the output's at `tileOut` of the input blocks; the region's own invariant; nothing owed; full shares. -/
def books (_ : Fin 1) (c : Dev nD) : Dat τ (Elt F) Unit ℕ (UR sig nD τ) ℕ cfg0 c where
  A w := entry m c (Pipeline.arrRef spec0 w)
  after w t := match w with
    | ⟨0, _⟩ => tileOf m c 0 t
    | ⟨1, _⟩ => tileOf m c 1 t
    | ⟨2, _⟩ => tileOf m c 2 t
    | ⟨3, _⟩ => tileOf m c 3 t
    | ⟨4, _⟩ => tileOf m c 4 t
    | ⟨5, _⟩ => tileOut (tileOf m c 0 t) (tileOf m c 1 t) (tileOf m c 2 t) (tileOf m c 3 t) (tileOf m c 4 t)
  Φ _ := Pipeline.ΦA spec0 c
  q _ := fullShare
  owed _ := 0

theorem books_A (c : Dev nD) (w : Fin cfg0.W) : (books m 0 c).A w = entry m c (Pipeline.arrRef spec0 w) := by
  dsimp only [books]

theorem books_after0 (c : Dev nD) (t : Fin cfg0.N) : (books m 0 c).after 0 t = tileOf m c 0 t := by dsimp only [books]
theorem books_after1 (c : Dev nD) (t : Fin cfg0.N) : (books m 0 c).after 1 t = tileOf m c 1 t := by dsimp only [books]
theorem books_after2 (c : Dev nD) (t : Fin cfg0.N) : (books m 0 c).after 2 t = tileOf m c 2 t := by dsimp only [books]
theorem books_after3 (c : Dev nD) (t : Fin cfg0.N) : (books m 0 c).after 3 t = tileOf m c 3 t := by dsimp only [books]
theorem books_after4 (c : Dev nD) (t : Fin cfg0.N) : (books m 0 c).after 4 t = tileOf m c 4 t := by dsimp only [books]
theorem books_after5 (c : Dev nD) (t : Fin cfg0.N) : (books m 0 c).after 5 t
    = tileOut (tileOf m c 0 t) (tileOf m c 1 t) (tileOf m c 2 t) (tileOf m c 3 t) (tileOf m c 4 t) := by dsimp only [books]

theorem staged0 (c : Dev nD) (t : Fin cfg0.N) (d) : (books m 0 c).before 0 t d = tileOf m c 0 t :=
  staged0_of m (books m 0 c) (books_A m c 0) (books_after0 m c) t d
theorem staged1 (c : Dev nD) (t : Fin cfg0.N) (d) : (books m 0 c).before 1 t d = tileOf m c 1 t :=
  staged1_of m (books m 0 c) (books_A m c 1) (books_after1 m c) t d
theorem staged2 (c : Dev nD) (t : Fin cfg0.N) (d) : (books m 0 c).before 2 t d = tileOf m c 2 t :=
  staged2_of m (books m 0 c) (books_A m c 2) (books_after2 m c) t d
theorem staged3 (c : Dev nD) (t : Fin cfg0.N) (d) : (books m 0 c).before 3 t d = tileOf m c 3 t :=
  staged3_of m (books m 0 c) (books_A m c 3) (books_after3 m c) t d
theorem staged4 (c : Dev nD) (t : Fin cfg0.N) (d) : (books m 0 c).before 4 t d = tileOf m c 4 t :=
  staged4_of m (books m 0 c) (books_A m c 4) (books_after4 m c) t d

/-! ## The body at a tile, as the pipeline calls it -/

def tilePre (c : Dev nD) (t : Fin cfg0.N) : sProp 𝕄 :=
  iprop((books m 0 c).Φ t.castSucc ∗ (books m 0 c).owesAt () t.castSucc
    ∗ (∃ d, owns (c : Thread nD τ) (st0_0 t) fullShare ((books m 0 c).before 0 t d))
    ∗ (∃ d, owns (c : Thread nD τ) (st0_1 t) fullShare ((books m 0 c).before 1 t d))
    ∗ (∃ d, owns (c : Thread nD τ) (st0_2 t) fullShare ((books m 0 c).before 2 t d))
    ∗ (∃ d, owns (c : Thread nD τ) (st0_3 t) fullShare ((books m 0 c).before 3 t d))
    ∗ (∃ d, owns (c : Thread nD τ) (st0_4 t) fullShare ((books m 0 c).before 4 t d))
    ∗ (∃ d, owns (c : Thread nD τ) (st0_5 t) fullShare ((books m 0 c).before 5 t d)))

def tilePost (c : Dev nD) (t : Fin cfg0.N) : sProp 𝕄 :=
  iprop((books m 0 c).Φ t.succ ∗ (books m 0 c).owesAt () t.succ
    ∗ owns (c : Thread nD τ) (st0_0 t) fullShare ((books m 0 c).after 0 t)
    ∗ owns (c : Thread nD τ) (st0_1 t) fullShare ((books m 0 c).after 1 t)
    ∗ owns (c : Thread nD τ) (st0_2 t) fullShare ((books m 0 c).after 2 t)
    ∗ owns (c : Thread nD τ) (st0_3 t) fullShare ((books m 0 c).after 3 t)
    ∗ owns (c : Thread nD τ) (st0_4 t) fullShare ((books m 0 c).after 4 t)
    ∗ owns (c : Thread nD τ) (st0_5 t) fullShare ((books m 0 c).after 5 t))

/-- At any tile the input buffers hold their blocks, so `body_runs` applies; the invariant and what is owed pass
    through untouched. -/
theorem tile_runs (c : Dev nD) (t : Fin cfg0.N) :
    tilePre m c t ⊢ wp frame (wpE (defs₀ (F := F)) Variants.none c none) Set.univ (bodyAt0 t) (fun _ => tilePost m c t) := by
  unfold tilePre tilePost bodyAt0
  simp only [staged0, staged1, staged2, staged3, staged4]
  rw [show (books m 0 c).Φ t.succ = (books m 0 c).Φ t.castSucc from rfl,
    show (books m 0 c).owesAt () t.succ = (books m 0 c).owesAt () t.castSucc from rfl,
    books_after0, books_after1, books_after2, books_after3, books_after4, books_after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (tileOf m c 0 t) (tileOf m c 1 t) (tileOf m c 2 t) (tileOf m c 3 t) (tileOf m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem every_tile_runs (c : Dev nD) : BodyObligation (books (F := F) m 0 c) (defs₀ (F := F)) Variants.none () Set.univ := fun t => by
  rw [bigSep_W0, bigSep_W0]
  exact tile_runs m c t

/-! ## The run -/

set_option backward.isDefEq.respectTransparency.types false in
/-- Every weakly fair execution ends, and then every window's array is where the bookkeeping puts it and every other
    buffer is as the tiles found it. -/
theorem run_tiles : θ_run defs (onTc (τ := τ) (main (F := F))) (s₀ m ρ) (Pipeline.FramePost cfgs (books m) 0 (entry m)) :=
  Pipeline.θ_run_frame cfgs (books m) (0 : Fin 1) launch0 defs₀ Variants.none m ρ main
    (hbody := fun c => (every_tile_runs m c).loose) (hshare := fun c => (books m 0 c).share_full fun _ => rfl)
    (howed := fun _ _ => rfl) (V := entry m) (hmain := main_is_prefix_then_tiles m Variants.none) (hA := books_A m) (hΦ := fun _ _ => rfl)

/-- The frame: the run ends and the seven arguments are as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  args_kept_of m ρ (books m) (books_A m) (run_tiles m ρ)

end Cert.Kernel.Tiles

end
-- ==== Proof.KernelIdealTiles.lean ====
/-
  The frame of the edge-scoring program: every weakly fair execution ends, nothing faults, and the seven argument
  arrays end as they began.

  The program first builds, on the host, the edge feature matrix (for each of the 6 400 000 edges the two endpoint
  embeddings and the two endpoint mask values, gathered and laid side by side: 18 columns), then scores the edges in
  125 tiles of 51 200 rows.  One tile's body reads its tile of features and the four small parameter arrays, and
  overwrites the whole of its output tile with one value computed from what it read; it also reads the output tile
  before overwriting it, and that value is dropped.  So after the body the output tile holds the tile's score vector
  (`tileOut`), whatever it held before, and every input buffer is as it was.  The pipeline's bookkeeping then gives
  the run: the output array is written tile by tile, no other array is written, and the argument arrays are not
  among the buffers the host operations write.
  Everything here is stated for any float instance `F`.
-/
import proofs.«165301_j42649025249599_1_alg».proof.Proof.Gen.KernelIdeal.Launch
import proofs.«165301_j42649025249599_1_alg».proof.Proof.Gen.KernelIdeal.Skeleton
import proofs.«165301_j42649025249599_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the tiles -/

/-- What core `c`'s buffers hold when the tiles start: the launch memory after the 43 host operations that build
    the feature matrix. -/
abbrev entry (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is those host operations and then the tiled region. -/
theorem main_is_prefix_then_tiles (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes argument 0: the tiles find it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 1: the tiles find it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 2: the tiles find it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 3: the tiles find it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 4: the tiles find it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 5: the tiles find it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- No host operation writes argument 6: the tiles find it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## A window's tile -/

/-- Window `w`'s block at tile `t`, read off its array as the tiles find it. -/
def tileOf (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's staging buffer holds its block at every tile, fetched there or kept from the tile before. -/
theorem staged0_of {c : Dev nD} (dat : Dat τ (Elt F) Unit ℕ (UR sig nD τ) ℕ cfg0 c) (hA : dat.A 0 = entry m c (Pipeline.arrRef spec0 0))
    (hafter : ∀ t, dat.after 0 t = tileOf m c 0 t) (t : Fin cfg0.N) (d) : dat.before 0 t d = tileOf m c 0 t :=
  (dat.before_in_eq_fetched 0 rfl (fun _ => rfl) (fun _ _ _ => rfl) (fun t => by rw [hafter]; unfold Dat.blockOf tileOf; rw [hA]; try rfl) t d).trans
    (by unfold Dat.fetched Dat.blockOf tileOf; rw [hA]; try rfl)
/-- Input window 1's staging buffer holds its block at every tile, fetched there or kept from the tile before. -/
theorem staged1_of {c : Dev nD} (dat : Dat τ (Elt F) Unit ℕ (UR sig nD τ) ℕ cfg0 c) (hA : dat.A 1 = entry m c (Pipeline.arrRef spec0 1))
    (hafter : ∀ t, dat.after 1 t = tileOf m c 1 t) (t : Fin cfg0.N) (d) : dat.before 1 t d = tileOf m c 1 t :=
  (dat.before_in_eq_fetched 1 rfl (fun _ => rfl) (fun _ _ _ => rfl) (fun t => by rw [hafter]; unfold Dat.blockOf tileOf; rw [hA]; try rfl) t d).trans
    (by unfold Dat.fetched Dat.blockOf tileOf; rw [hA]; try rfl)
/-- Input window 2's staging buffer holds its block at every tile, fetched there or kept from the tile before. -/
theorem staged2_of {c : Dev nD} (dat : Dat τ (Elt F) Unit ℕ (UR sig nD τ) ℕ cfg0 c) (hA : dat.A 2 = entry m c (Pipeline.arrRef spec0 2))
    (hafter : ∀ t, dat.after 2 t = tileOf m c 2 t) (t : Fin cfg0.N) (d) : dat.before 2 t d = tileOf m c 2 t :=
  (dat.before_in_eq_fetched 2 rfl (fun _ => rfl) (fun _ _ _ => rfl) (fun t => by rw [hafter]; unfold Dat.blockOf tileOf; rw [hA]; try rfl) t d).trans
    (by unfold Dat.fetched Dat.blockOf tileOf; rw [hA]; try rfl)
/-- Input window 3's staging buffer holds its block at every tile, fetched there or kept from the tile before. -/
theorem staged3_of {c : Dev nD} (dat : Dat τ (Elt F) Unit ℕ (UR sig nD τ) ℕ cfg0 c) (hA : dat.A 3 = entry m c (Pipeline.arrRef spec0 3))
    (hafter : ∀ t, dat.after 3 t = tileOf m c 3 t) (t : Fin cfg0.N) (d) : dat.before 3 t d = tileOf m c 3 t :=
  (dat.before_in_eq_fetched 3 rfl (fun _ => rfl) (fun _ _ _ => rfl) (fun t => by rw [hafter]; unfold Dat.blockOf tileOf; rw [hA]; try rfl) t d).trans
    (by unfold Dat.fetched Dat.blockOf tileOf; rw [hA]; try rfl)
/-- Input window 4's staging buffer holds its block at every tile, fetched there or kept from the tile before. -/
theorem staged4_of {c : Dev nD} (dat : Dat τ (Elt F) Unit ℕ (UR sig nD τ) ℕ cfg0 c) (hA : dat.A 4 = entry m c (Pipeline.arrRef spec0 4))
    (hafter : ∀ t, dat.after 4 t = tileOf m c 4 t) (t : Fin cfg0.N) (d) : dat.before 4 t d = tileOf m c 4 t :=
  (dat.before_in_eq_fetched 4 rfl (fun _ => rfl) (fun _ _ _ => rfl) (fun t => by rw [hafter]; unfold Dat.blockOf tileOf; rw [hA]; try rfl) t d).trans
    (by unfold Dat.fetched Dat.blockOf tileOf; rw [hA]; try rfl)

/-! ## From the pipeline's post to the claim's -/

/-- A run that ends with every window's array where the pipeline's bookkeeping puts it and every other buffer as
    the tiles found it leaves the seven arguments as launched: arguments 3 to 6 are input windows' arrays, never
    written back; arguments 0 to 2 are no window's array; and the host operations wrote none of the seven. -/
theorem args_kept_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).1 1).trans (((dats 0 c).arrAt_in 1 rfl _).trans ((hA c 1).trans (entry_arg3 m c))),
      ((h c).1 2).trans (((dats 0 c).arrAt_in 2 rfl _).trans ((hA c 2).trans (entry_arg4 m c))),
      ((h c).1 3).trans (((dats 0 c).arrAt_in 3 rfl _).trans ((hA c 3).trans (entry_arg5 m c))),
      ((h c).1 4).trans (((dats 0 c).arrAt_in 4 rfl _).trans ((hA c 4).trans (entry_arg6 m c)))⟩) h

/-! ## One tile's body -/

/-- The whole of a feature tile, of each parameter array, and of an output tile. -/
abbrev wholeFeat : Rect S51200x18 := Rect.unit (s := S51200x18) ![0, 0] S51200x18.size inb_S51200x18_S51200x18_0_0
abbrev wholeW1 : Rect S18x32 := Rect.unit (s := S18x32) ![0, 0] S18x32.size inb_S18x32_S18x32_0_0
abbrev wholeB1 : Rect S32 := Rect.unit (s := S32) ![0] S32.size inb_S32_S32_0
abbrev wholeW2 : Rect S32x1 := Rect.unit (s := S32x1) ![0, 0] S32x1.size inb_S32x1_S32x1_0_0
abbrev wholeB2 : Rect S1 := Rect.unit (s := S1) ![0] S1.size inb_S1_S1_0
abbrev wholeOut : Rect S51200 := Rect.unit (s := S51200) ![0] S51200.size inb_S51200_S51200_0

/-- What the body leaves in the output tile's buffer: its one store, of the score vector of what it loaded. -/
def tileOut (x0 : Vec F S51200x18 .f32) (x1 : Vec F S18x32 .f32) (x2 : Vec F S32 .f32) (x3 : Vec F S32x1 .f32) (x4 : Vec F S1 .f32) :
    Vec F S51200 .f32 :=
  View.canon [⟨wholeOut, k0_pay1 (View.ld x0 wholeFeat) (View.ld x1 wholeW1) (View.ld x2 wholeB1) (View.ld x3 wholeW2) (View.ld x4 wholeB2)⟩]

/-- The one store covers the output tile. -/
theorem tileOut_covered (p0 : Vec F S51200 .f32) (y : S51200.Idx) :
    ∃ pc ∈ ([⟨wholeOut, p0⟩] : List (View.Piece (Elt F) S51200 .f32)), y ∈ pc.1.set :=
  View.cover_of_tiled [⟨wholeOut, p0⟩] S51200.size (by rfl) y

set_option maxHeartbeats 1000000 in
/-- The body, on whole buffers holding `x0 … x4` and an output buffer holding anything, ends with the inputs as they
    were and the output buffer at `tileOut`. -/
theorem body_runs (c : Dev nD) (E : Set ℕ) (i : grid0.Coords)
    (arg1 : Memref sig .tc .vmem S51200x18 .f32) (harg1 : arg1.IsWhole) (arg2 : Memref sig .tc .vmem S18x32 .f32) (harg2 : arg2.IsWhole)
    (arg3 : Memref sig .tc .vmem S32 .f32) (harg3 : arg3.IsWhole) (arg4 : Memref sig .tc .vmem S32x1 .f32) (harg4 : arg4.IsWhole)
    (arg5 : Memref sig .tc .vmem S1 .f32) (harg5 : arg5.IsWhole) (arg6 : Memref sig .tc .vmem S51200 .f32) (harg6 : arg6.IsWhole)
    (x0 : Vec F S51200x18 .f32) (x1 : Vec F S18x32 .f32) (x2 : Vec F S32 .f32) (x3 : Vec F S32x1 .f32) (x4 : Vec F S1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tileOut x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (tileOut_covered _)

/-! ## The pipeline's bookkeeping -/

/-- On core `c`: the arrays as the tiles find them; after the body at tile `t` each input's buffer still at its
    block and the output's at `tileOut` of the input blocks; the region's own invariant; nothing owed; full shares. -/
def books (_ : Fin 1) (c : Dev nD) : Dat τ (Elt F) Unit ℕ (UR sig nD τ) ℕ cfg0 c where
  A w := entry m c (Pipeline.arrRef spec0 w)
  after w t := match w with
    | ⟨0, _⟩ => tileOf m c 0 t
    | ⟨1, _⟩ => tileOf m c 1 t
    | ⟨2, _⟩ => tileOf m c 2 t
    | ⟨3, _⟩ => tileOf m c 3 t
    | ⟨4, _⟩ => tileOf m c 4 t
    | ⟨5, _⟩ => tileOut (tileOf m c 0 t) (tileOf m c 1 t) (tileOf m c 2 t) (tileOf m c 3 t) (tileOf m c 4 t)
  Φ _ := Pipeline.ΦA spec0 c
  q _ := fullShare
  owed _ := 0

theorem books_A (c : Dev nD) (w : Fin cfg0.W) : (books m 0 c).A w = entry m c (Pipeline.arrRef spec0 w) := by
  dsimp only [books]

theorem books_after0 (c : Dev nD) (t : Fin cfg0.N) : (books m 0 c).after 0 t = tileOf m c 0 t := by dsimp only [books]
theorem books_after1 (c : Dev nD) (t : Fin cfg0.N) : (books m 0 c).after 1 t = tileOf m c 1 t := by dsimp only [books]
theorem books_after2 (c : Dev nD) (t : Fin cfg0.N) : (books m 0 c).after 2 t = tileOf m c 2 t := by dsimp only [books]
theorem books_after3 (c : Dev nD) (t : Fin cfg0.N) : (books m 0 c).after 3 t = tileOf m c 3 t := by dsimp only [books]
theorem books_after4 (c : Dev nD) (t : Fin cfg0.N) : (books m 0 c).after 4 t = tileOf m c 4 t := by dsimp only [books]
theorem books_after5 (c : Dev nD) (t : Fin cfg0.N) : (books m 0 c).after 5 t
    = tileOut (tileOf m c 0 t) (tileOf m c 1 t) (tileOf m c 2 t) (tileOf m c 3 t) (tileOf m c 4 t) := by dsimp only [books]

theorem staged0 (c : Dev nD) (t : Fin cfg0.N) (d) : (books m 0 c).before 0 t d = tileOf m c 0 t :=
  staged0_of m (books m 0 c) (books_A m c 0) (books_after0 m c) t d
theorem staged1 (c : Dev nD) (t : Fin cfg0.N) (d) : (books m 0 c).before 1 t d = tileOf m c 1 t :=
  staged1_of m (books m 0 c) (books_A m c 1) (books_after1 m c) t d
theorem staged2 (c : Dev nD) (t : Fin cfg0.N) (d) : (books m 0 c).before 2 t d = tileOf m c 2 t :=
  staged2_of m (books m 0 c) (books_A m c 2) (books_after2 m c) t d
theorem staged3 (c : Dev nD) (t : Fin cfg0.N) (d) : (books m 0 c).before 3 t d = tileOf m c 3 t :=
  staged3_of m (books m 0 c) (books_A m c 3) (books_after3 m c) t d
theorem staged4 (c : Dev nD) (t : Fin cfg0.N) (d) : (books m 0 c).before 4 t d = tileOf m c 4 t :=
  staged4_of m (books m 0 c) (books_A m c 4) (books_after4 m c) t d

/-! ## The body at a tile, as the pipeline calls it -/

def tilePre (c : Dev nD) (t : Fin cfg0.N) : sProp 𝕄 :=
  iprop((books m 0 c).Φ t.castSucc ∗ (books m 0 c).owesAt () t.castSucc
    ∗ (∃ d, owns (c : Thread nD τ) (st0_0 t) fullShare ((books m 0 c).before 0 t d))
    ∗ (∃ d, owns (c : Thread nD τ) (st0_1 t) fullShare ((books m 0 c).before 1 t d))
    ∗ (∃ d, owns (c : Thread nD τ) (st0_2 t) fullShare ((books m 0 c).before 2 t d))
    ∗ (∃ d, owns (c : Thread nD τ) (st0_3 t) fullShare ((books m 0 c).before 3 t d))
    ∗ (∃ d, owns (c : Thread nD τ) (st0_4 t) fullShare ((books m 0 c).before 4 t d))
    ∗ (∃ d, owns (c : Thread nD τ) (st0_5 t) fullShare ((books m 0 c).before 5 t d)))

def tilePost (c : Dev nD) (t : Fin cfg0.N) : sProp 𝕄 :=
  iprop((books m 0 c).Φ t.succ ∗ (books m 0 c).owesAt () t.succ
    ∗ owns (c : Thread nD τ) (st0_0 t) fullShare ((books m 0 c).after 0 t)
    ∗ owns (c : Thread nD τ) (st0_1 t) fullShare ((books m 0 c).after 1 t)
    ∗ owns (c : Thread nD τ) (st0_2 t) fullShare ((books m 0 c).after 2 t)
    ∗ owns (c : Thread nD τ) (st0_3 t) fullShare ((books m 0 c).after 3 t)
    ∗ owns (c : Thread nD τ) (st0_4 t) fullShare ((books m 0 c).after 4 t)
    ∗ owns (c : Thread nD τ) (st0_5 t) fullShare ((books m 0 c).after 5 t))

/-- At any tile the input buffers hold their blocks, so `body_runs` applies; the invariant and what is owed pass
    through untouched. -/
theorem tile_runs (c : Dev nD) (t : Fin cfg0.N) :
    tilePre m c t ⊢ wp frame (wpE (defs₀ (F := F)) Variants.none c none) Set.univ (bodyAt0 t) (fun _ => tilePost m c t) := by
  unfold tilePre tilePost bodyAt0
  simp only [staged0, staged1, staged2, staged3, staged4]
  rw [show (books m 0 c).Φ t.succ = (books m 0 c).Φ t.castSucc from rfl,
    show (books m 0 c).owesAt () t.succ = (books m 0 c).owesAt () t.castSucc from rfl,
    books_after0, books_after1, books_after2, books_after3, books_after4, books_after5]
  iintro ⟨HΦ, Ho, ⟨%d0, H0⟩, ⟨%d1, H1⟩, ⟨%d2, H2⟩, ⟨%d3, H3⟩, ⟨%d4, H4⟩, ⟨%d5, H5⟩⟩
  iapply (body_runs c Set.univ (grid0.coords t) _ _ _ _ _ _ _ _ _ _ _ _ (tileOf m c 0 t) (tileOf m c 1 t) (tileOf m c 2 t) (tileOf m c 3 t) (tileOf m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem every_tile_runs (c : Dev nD) : BodyObligation (books (F := F) m 0 c) (defs₀ (F := F)) Variants.none () Set.univ := fun t => by
  rw [bigSep_W0, bigSep_W0]
  exact tile_runs m c t

/-! ## The run -/

set_option backward.isDefEq.respectTransparency.types false in
/-- Every weakly fair execution ends, and then every window's array is where the bookkeeping puts it and every other
    buffer is as the tiles found it. -/
theorem run_tiles : θ_run defs (onTc (τ := τ) (main (F := F))) (s₀ m ρ) (Pipeline.FramePost cfgs (books m) 0 (entry m)) :=
  Pipeline.θ_run_frame cfgs (books m) (0 : Fin 1) launch0 defs₀ Variants.none m ρ main
    (hbody := fun c => (every_tile_runs m c).loose) (hshare := fun c => (books m 0 c).share_full fun _ => rfl)
    (howed := fun _ _ => rfl) (V := entry m) (hmain := main_is_prefix_then_tiles m Variants.none) (hA := books_A m) (hΦ := fun _ _ => rfl)

/-- The frame: the run ends and the seven arguments are as launched. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  args_kept_of m ρ (books m) (books_A m) (run_tiles m ρ)

end Cert.KernelIdeal.Tiles

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.EdgeScore.lean ====
/-
  The score of one edge.

  An edge has 18 features (its source's 8 embedding entries, its destination's 8, and the two endpoints' mask values).
  A hidden layer of 32 units takes `max (∑ k, feature k · W1 k j + b1 j) 0`; the output unit takes the logistic
  function of `∑ j, hidden j · W2 j + b2`.  Everything is read on the extended reals, where the logistic function
  is `1 / (1 + e^(-x))` with its limits `0` and `1` at the two infinities.  `scores` is the whole output array:
  entry `e` is the score of row `e` of the feature matrix.
-/
import proofs.«165301_j42649025249599_1_alg».proof.Proof.LibDense

noncomputable section

namespace Cert.EdgeScore

open Idealize.ShloMosaic Idealize.ShloMosaic.ValueIdx Cert.LibDense

/-- One edge's score from its feature row and the two layers' parameters. -/
def score (row : Fin 18 → EReal) (W1 : Fin 18 → Fin 32 → EReal) (b1 : Fin 32 → EReal) (W2 : Fin 32 → EReal) (b2 : EReal) : EReal :=
  Ideal.logistic (∑ j : Fin 32, dense row W1 b1 j * W2 j + b2)

/-- The score depends on the feature row only through its entries. -/
theorem score_congr {row row' : Fin 18 → EReal} (e : ∀ k, row k = row' k) (W1 : Fin 18 → Fin 32 → EReal) (b1 : Fin 32 → EReal)
    (W2 : Fin 32 → EReal) (b2 : EReal) : score row W1 b1 W2 b2 = score row' W1 b1 W2 b2 := by
  rw [show row = row' from funext e]

/-- All 6 400 000 scores: entry `e` from row `e` of the feature matrix. -/
def scores (feat : (⟨2, ![6400000, 18]⟩ : Shape).Idx → EReal) (w1 : (⟨2, ![18, 32]⟩ : Shape).Idx → EReal)
    (b1 : (⟨1, ![32]⟩ : Shape).Idx → EReal) (w2 : (⟨2, ![32, 1]⟩ : Shape).Idx → EReal) (b2 : (⟨1, ![1]⟩ : Shape).Idx → EReal) :
    (⟨1, ![6400000]⟩ : Shape).Idx → EReal :=
  fun i => score (fun k => feat (ix2 (i 0) k)) (fun k j => w1 (ix2 k j)) (fun j => b1 (ix1 j)) (fun j => w2 (ix2 j (0 : Fin 1)))
    (b2 (ix1 (0 : Fin 1)))

/-- The bit pattern of the float one denotes the real one. -/
theorem one_f32 : Ideal.ofBits .f32 0x3F800000#32 = 1 := IdealRules.sign_bit.ideal_onePat .f32

end Cert.EdgeScore

end
-- ==== Proof.KernelIdealTileScore.lean ====
/-
  One tile's stored vector is the tile's scores.

  The body's stored value, read on the extended reals at row `r` of the tile, is the score of row `r` of the feature
  tile: the changes of float format are the identity, the first matrix product into a zero accumulator plus the bias
  row and the maximum with zero is the hidden layer of that row, the second product (one output column) plus the
  one-entry bias is the output unit's argument, and the kernel's logistic is the logistic function.
-/
import proofs.«165301_j42649025249599_1_alg».proof.Proof.Gen.KernelIdeal.Skeleton
import proofs.«165301_j42649025249599_1_alg».proof.Proof.EdgeScore

noncomputable section

namespace Cert.KernelIdeal.TileScore

open Idealize.ShloMosaic Idealize.ShloMosaic.ValueIdx Cert.KernelIdeal Cert.KernelIdeal.Gen Cert.LibDense Cert.EdgeScore

/-- A column vector of one column, flattened, read at `r` is the column's entry `r`. -/
theorem flatten_col_apply (v : FVec Ideal S51200x1 .f32) (h : S51200x1.ShapeCasts S51200) (r : Fin 51200) :
    shapeCast S51200 v h (ix1 r) = v (ix2 r (0 : Fin 1)) :=
  shapeCast_apply v h (ix1 r) (ix2 r (0 : Fin 1)) (by
    rw [Shape.rowMajor_val_two, Shape.rowMajor_val_one]; show r.val * 1 + 0 = r.val; omega)

/-- A vector laid out as one row, read at column `j`. -/
theorem as_row_apply (v : FVec Ideal S32 .f32) (h : S32.ShapeCasts S1x32) (j : Fin 32) :
    shapeCast S1x32 v h (ix2 (0 : Fin 1) j) = v (ix1 j) :=
  shapeCast_apply v h (ix2 (0 : Fin 1) j) (ix1 j) (by
    rw [Shape.rowMajor_val_two, Shape.rowMajor_val_one]; show j.val = 0 * 32 + j.val; omega)

/-- The one-entry vector as a one-by-one matrix. -/
theorem as_cell_apply (v : FVec Ideal S1 .f32) (h : S1.ShapeCasts S1x1) :
    shapeCast S1x1 v h (ix2 (0 : Fin 1) (0 : Fin 1)) = v (ix1 (0 : Fin 1)) :=
  shapeCast_apply v h (ix2 (0 : Fin 1) (0 : Fin 1)) (ix1 (0 : Fin 1)) (by
    rw [Shape.rowMajor_val_two, Shape.rowMajor_val_one]; rfl)

/-- The body's stored vector at row `r` is the score of the feature tile's row `r`. -/
theorem stored_eq_score (x0 : FVec Ideal S51200x18 .f32) (x1 : FVec Ideal S18x32 .f32) (x2 : FVec Ideal S32 .f32)
    (x3 : FVec Ideal S32x1 .f32) (x4 : FVec Ideal S1 .f32) (r : Fin 51200) :
    k0_pay1 (F := Ideal) x0 x1 x2 x3 x4 (ix1 r)
      = score (fun k => x0 (ix2 r k)) (fun k j => x1 (ix2 k j)) (fun j => x2 (ix1 j)) (fun j => x3 (ix2 j (0 : Fin 1)))
          (x4 (ix1 (0 : Fin 1))) := by
  unfold k0_pay1
  refine (flatten_col_apply _ _ r).trans ?_
  show Ideal.logistic (FloatOps.matmul (F := Ideal) dot_S51200x32_S32x1_S51200x1_1_0_0_1_n_n none _ _ (constant (F := Ideal) S51200x1 .f32 0x00000000#32) (ix2 r (0 : Fin 1))
      + broadcastTo S51200x1 (shapeCast S1x1 x4 shapeCasts_S1_S1x1) broadcasts_S1x1_S51200x1 (ix2 r (0 : Fin 1))) = _
  unfold score
  refine congrArg Ideal.logistic ?_
  have hd2 : dot_S51200x32_S32x1_S51200x1_1_0_0_1_n_n = DotDims.plain 51200 32 1 := rfl
  rw [hd2, matmul_plain_zero_apply, broadcastTo_1b_ab_apply, as_cell_apply]
  refine congrArg (· + x4 (ix1 (0 : Fin 1))) (Finset.sum_congr rfl fun j _ => ?_)
  refine congrArg (· * x3 (ix2 j (0 : Fin 1))) ?_
  refine (kernel_layer_apply dot_S51200x18_S18x32_S51200x32_1_0_0_1_n_n rfl none
    (truncf .bf16 (shapeCast S51200x18 x0 shapeCasts_S51200x18_S51200x18) bitsLt_bf16_f32) (truncf .bf16 x1 bitsLt_bf16_f32)
    (shapeCast S1x32 x2 shapeCasts_S32_S1x32) broadcasts_S1x32_S51200x32 r j (fun k => x0 (ix2 r k)) (fun k => ?_)).trans ?_
  · show shapeCast S51200x18 x0 shapeCasts_S51200x18_S51200x18 (ix2 r k) = x0 (ix2 r k)
    rw [shapeCast_self]
  · unfold dense
    simp only [as_row_apply]
    rfl

end Cert.KernelIdeal.TileScore

end
-- ==== Proof.KernelIdealScores.lean ====
/-
  What the tiled program leaves in its result array: every edge's score.

  Tile `t` covers rows `51200·t … 51200·t + 51199` of the feature matrix and of the result; the four parameter arrays
  are read whole at every tile.  So the vector tile `t` writes back is rows `51200·t …` of the array of all scores,
  the 125 tiles cover all 6 400 000 entries, and the result array ends holding the score of every row of the feature
  matrix the host operations built.  The parameter arrays are as launched, since no host operation writes them.
-/
import proofs.«165301_j42649025249599_1_alg».proof.Proof.KernelIdealTiles
import proofs.«165301_j42649025249599_1_alg».proof.Proof.KernelIdealTileScore
import Idealize.ShloMosaic.Lib.Pipeline.Value

noncomputable section

namespace Cert.KernelIdeal.Scores

open Idealize.ShloMosaic Idealize.ShloMosaic.TcCoe Idealize.SL.Sem Idealize.ShloMosaic.ValueIdx
open Cert.KernelIdeal Cert.KernelIdeal.Gen Cert.KernelIdeal.Tiles Cert.KernelIdeal.TileScore Cert.EdgeScore
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- Where each window's block sits at tile `t`: the feature and result windows at block `t`, the parameter windows
    at block zero (decided over the 125 tiles). -/
theorem where_blocks_sit : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 1) = t.val :=
  (by decide +kernel : ∀ t : Fin grid0.N, _)

theorem tiles_lt (t : Fin cfg0.N) : t.val < 125 := Nat.lt_of_lt_of_eq t.isLt (N_0 : cfg0.N = 125)

/-! ## The blocks, read at coordinates -/

/-- Row `r` of feature tile `t` is row `51200·t + r` of the feature matrix. -/
theorem feat_tile (c : Dev nD) (t : Fin cfg0.N) (r : Fin 51200) (k : Fin 18) (i : Fin 6400000) (hi : i.val = t.val * 51200 + r.val) :
    (tileOf m c 0 t : S51200x18.Idx → EReal) (ix2 r k) = (entry m c main_v34 : S6400000x18.Idx → EReal) (ix2 i k) := by
  obtain ⟨e0, e1, -⟩ := where_blocks_sit t
  show entry m c main_v34 (((cfg0.win 0).blk t).view.emb (ix2 r k)) = entry m c main_v34 (ix2 i k)
  refine congrArg _ (funext fun a => Fin.ext ?_)
  match a with
  | ⟨0, _⟩ => show win0_0.index t (0 : Fin 2) * 51200 + 1 * r.val = i.val; omega
  | ⟨1, _⟩ => show win0_0.index t (1 : Fin 2) * 18 + 1 * k.val = k.val; omega

/-- The first layer's weights are read whole. -/
theorem w1_tile (c : Dev nD) (t : Fin cfg0.N) (k : Fin 18) (j : Fin 32) :
    (tileOf m c 1 t : S18x32.Idx → EReal) (ix2 k j) = (entry m c main_arg3 : S18x32.Idx → EReal) (ix2 k j) := by
  obtain ⟨-, -, e2, e3, -⟩ := where_blocks_sit t
  show entry m c main_arg3 (((cfg0.win 1).blk t).view.emb (ix2 k j)) = entry m c main_arg3 (ix2 k j)
  refine congrArg _ (funext fun a => Fin.ext ?_)
  match a with
  | ⟨0, _⟩ => show win0_1.index t (0 : Fin 2) * 18 + 1 * k.val = k.val; omega
  | ⟨1, _⟩ => show win0_1.index t (1 : Fin 2) * 32 + 1 * j.val = j.val; omega

/-- The first layer's bias is read whole. -/
theorem b1_tile (c : Dev nD) (t : Fin cfg0.N) (j : Fin 32) :
    (tileOf m c 2 t : S32.Idx → EReal) (ix1 j) = (entry m c main_arg4 : S32.Idx → EReal) (ix1 j) := by
  obtain ⟨-, -, -, -, e4, -⟩ := where_blocks_sit t
  show entry m c main_arg4 (((cfg0.win 2).blk t).view.emb (ix1 j)) = entry m c main_arg4 (ix1 j)
  refine congrArg _ (funext fun a => Fin.ext ?_)
  match a with
  | ⟨0, _⟩ => show win0_2.index t (0 : Fin 1) * 32 + 1 * j.val = j.val; omega

/-- The output column is read whole. -/
theorem w2_tile (c : Dev nD) (t : Fin cfg0.N) (j : Fin 32) :
    (tileOf m c 3 t : S32x1.Idx → EReal) (ix2 j (0 : Fin 1)) = (entry m c main_arg5 : S32x1.Idx → EReal) (ix2 j (0 : Fin 1)) := by
  obtain ⟨-, -, -, -, -, e5, e6, -⟩ := where_blocks_sit t
  show entry m c main_arg5 (((cfg0.win 3).blk t).view.emb (ix2 j (0 : Fin 1))) = entry m c main_arg5 (ix2 j (0 : Fin 1))
  refine congrArg _ (funext fun a => Fin.ext ?_)
  match a with
  | ⟨0, _⟩ => show win0_3.index t (0 : Fin 2) * 32 + 1 * j.val = j.val; omega
  | ⟨1, _⟩ => show win0_3.index t (1 : Fin 2) * 1 + 1 * 0 = 0; omega

/-- The output bias is read whole. -/
theorem b2_tile (c : Dev nD) (t : Fin cfg0.N) :
    (tileOf m c 4 t : S1.Idx → EReal) (ix1 (0 : Fin 1)) = (entry m c main_arg6 : S1.Idx → EReal) (ix1 (0 : Fin 1)) := by
  obtain ⟨-, -, -, -, -, -, -, e7, -⟩ := where_blocks_sit t
  show entry m c main_arg6 (((cfg0.win 4).blk t).view.emb (ix1 (0 : Fin 1))) = entry m c main_arg6 (ix1 (0 : Fin 1))
  refine congrArg _ (funext fun a => Fin.ext ?_)
  match a with
  | ⟨0, _⟩ => show win0_4.index t (0 : Fin 1) * 1 + 1 * 0 = 0; omega

/-- Entry `r` of result tile `t` is entry `51200·t + r` of the result. -/
theorem out_pos (t : Fin cfg0.N) (r : Fin 51200) (i : Fin 6400000) (hi : i.val = t.val * 51200 + r.val) :
    (((cfg0.win 5).blk t).view.emb (ix1 r) : S6400000.Idx) = ix1 i := by
  obtain ⟨-, -, -, -, -, -, -, -, e8⟩ := where_blocks_sit t
  refine funext fun a => Fin.ext ?_
  match a with
  | ⟨0, _⟩ => show win0_5.index t (0 : Fin 1) * 51200 + 1 * r.val = i.val; omega

/-! ## The result array -/

/-- All scores, of the arrays as the tiles find them. -/
abbrev allScores (c : Dev nD) : S6400000.Idx → EReal :=
  scores (entry m c main_v34) (entry m c main_arg3) (entry m c main_arg4) (entry m c main_arg5) (entry m c main_arg6)

/-- What tile `t` writes back is rows `51200·t …` of all scores. -/
theorem tile_written (c : Dev nD) (t : Fin cfg0.N) :
    (books m 0 c).flushed 5 t = ((cfg0.win 5).blk t).view.read (Elt Ideal) (allScores m c) := by
  show (cfg0.win 5).cut (grid0.coords t) ((books m 0 c).after 5 t) = _
  rw [books_after5]
  unfold tileOut
  rw [View.canon_unit_zero zero1]
  simp only [View.ld_unit_zero (S := S51200x18) zero2, View.ld_unit_zero (S := S18x32) zero2, View.ld_unit_zero (S := S32) zero1,
    View.ld_unit_zero (S := S32x1) zero2, View.ld_unit_zero (S := S1) zero1]
  refine funext fun (j : S51200.Idx) => ?_
  obtain ⟨r, rfl⟩ : ∃ r : Fin 51200, j = ix1 r := ⟨j 0, eq_ix1 j⟩
  have hlt := tiles_lt t
  have hr := r.isLt
  have hi : t.val * 51200 + r.val < 6400000 := by omega
  show k0_pay1 (F := Ideal) (tileOf m c 0 t) (tileOf m c 1 t) (tileOf m c 2 t) (tileOf m c 3 t) (tileOf m c 4 t) (ix1 r)
    = allScores m c (((cfg0.win 5).blk t).view.emb (ix1 r))
  refine ((stored_eq_score (tileOf m c 0 t) (tileOf m c 1 t) (tileOf m c 2 t) (tileOf m c 3 t) (tileOf m c 4 t) r).trans ?_).trans
    (congrArg (allScores m c) (out_pos t r ⟨t.val * 51200 + r.val, hi⟩ rfl).symm)
  show _ = score (fun k => (entry m c main_v34 : S6400000x18.Idx → EReal) (ix2 ⟨t.val * 51200 + r.val, hi⟩ k))
    (fun k j => (entry m c main_arg3 : S18x32.Idx → EReal) (ix2 k j)) (fun j => (entry m c main_arg4 : S32.Idx → EReal) (ix1 j))
    (fun j => (entry m c main_arg5 : S32x1.Idx → EReal) (ix2 j (0 : Fin 1))) ((entry m c main_arg6 : S1.Idx → EReal) (ix1 (0 : Fin 1)))
  simp only [feat_tile m c t r _ ⟨t.val * 51200 + r.val, hi⟩ rfl, w1_tile m c t, b1_tile m c t, w2_tile m c t, b2_tile m c t]

/-- An entry of the result lies in tile `t`'s block iff it is one of the 51 200 entries from `51200·t` on. -/
theorem mem_tile (t : Fin cfg0.N) (i : S6400000.Idx) :
    i ∈ ((cfg0.win 5).blk t).view.set ↔ ∀ a : Fin 1, win0_5.index t a * S51200.size a ≤ (i a).val ∧ (i a).val < win0_5.index t a * S51200.size a + S51200.size a := by
  show i ∈ ((View.whole main_v35).slice (win0_5.rect t)).set ↔ _
  rw [View.set_slice_whole, Rect.mem_set_unit]
  exact Iff.rfl

/-- Every entry of the result is in some tile's block. -/
theorem tiles_cover (i : S6400000.Idx) : ∃ t : Fin cfg0.N, (cfg0.win 5).flush t = true ∧ i ∈ ((cfg0.win 5).blk t).view.set := by
  have hi : (i 0).val < 6400000 := (i 0).isLt
  have hN : cfg0.N = 125 := N_0
  refine ⟨⟨(i 0).val / 51200, by rw [hN]; omega⟩, flush0_5 _, ?_⟩
  rw [mem_tile]
  intro a
  obtain ⟨-, -, -, -, -, -, -, -, e8⟩ := where_blocks_sit ⟨(i 0).val / 51200, by rw [hN]; omega⟩
  match a with
  | ⟨0, _⟩ =>
    show win0_5.index _ (0 : Fin 1) * 51200 ≤ (i 0).val ∧ (i 0).val < win0_5.index _ (0 : Fin 1) * 51200 + 51200
    rw [e8]
    show (i 0).val / 51200 * 51200 ≤ (i 0).val ∧ (i 0).val < (i 0).val / 51200 * 51200 + 51200
    omega

/-- The result array after the run holds every score. -/
theorem result_is_scores (c : Dev nD) : (books m 0 c).arrAt 5 cfg0.N = allScores m c :=
  (books m 0 c).arrAt_eq_of_cover 5 (allScores m c) (fun t _ => tile_written m c t) tiles_cover

/-! ## The run, read -/

/-- Every weakly fair execution ends with the result array at all scores of the feature matrix the host operations
    built and of the parameter arrays as launched, and the seven arguments unchanged. -/
theorem run : θ_run defs (onTc (τ := τ) (main (F := Ideal))) ⟨m, fun _ => 0, ρ⟩ fun r => ∀ c : Dev nD,
      r.2.mem ((c : Thread nD τ).loc main_v35)
        = scores (entry m c main_v34) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨(((h c).1 5).trans (result_is_scores m c)).trans (by
        unfold allScores
        rw [entry_arg3 m c, entry_arg4 m c, entry_arg5 m c, entry_arg6 m c]),
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c),
      ((h c).1 1).trans (((books m 0 c).arrAt_in 1 rfl _).trans ((books_A m c 1).trans (entry_arg3 m c))),
      ((h c).1 2).trans (((books m 0 c).arrAt_in 2 rfl _).trans ((books_A m c 2).trans (entry_arg4 m c))),
      ((h c).1 3).trans (((books m 0 c).arrAt_in 3 rfl _).trans ((books_A m c 3).trans (entry_arg5 m c))),
      ((h c).1 4).trans (((books m 0 c).arrAt_in 4 rfl _).trans ((books_A m c 4).trans (entry_arg6 m c)))⟩)
    (run_tiles m ρ)

end Cert.KernelIdeal.Scores

end
-- ==== Proof.RefScores.lean ====
/-
  The reference's result, entry by entry, is the edge's score.

  The reference builds the same feature matrix, applies the hidden layer to all rows at once (a matrix product, a
  bias vector laid along the rows, the maximum with zero), then the output unit (a product with the one output
  column, the one-entry bias), and spells the logistic function as `1 / (1 + e^(-x))` with the host's negation,
  exponential and quotient; last, the one-column result is flattened.  Read at entry `e` on the extended reals that is
  the score of row `e` of the feature matrix: the host's operations are the same real functions as the logistic's
  own definition, and the float pattern of one denotes one.
-/
import proofs.«165301_j42649025249599_1_alg».proof.Proof.Gen.ReferenceIdeal.Run
import proofs.«165301_j42649025249599_1_alg».proof.Proof.Gen.ReferenceIdeal.Read
import proofs.«165301_j42649025249599_1_alg».proof.Proof.EdgeScore

noncomputable section

namespace Cert.ReferenceIdeal.Scores

open Idealize.ShloMosaic Idealize.ShloMosaic.ValueIdx Cert.ReferenceIdeal Cert.ReferenceIdeal.Gen Cert.ReferenceIdeal.Read Cert.LibDense Cert.EdgeScore

/-- The hidden layer's array at (e, j) is the layer of the feature matrix's row `e`. -/
theorem hidden_apply (x0 : (⟨S100000x8, .f32⟩ : BufTy).Contents (Elt Ideal)) (x1 : (⟨S2x6400000, .i32⟩ : BufTy).Contents (Elt Ideal))
    (x2 : (⟨S100000, .f32⟩ : BufTy).Contents (Elt Ideal)) (x3 : (⟨S18x32, .f32⟩ : BufTy).Contents (Elt Ideal))
    (x4 : (⟨S32, .f32⟩ : BufTy).Contents (Elt Ideal)) (e : Fin 6400000) (j : Fin 32) :
    val_main_v39 (F := Ideal) x0 x1 x2 x3 x4 (ix2 e j)
      = dense (fun k => val_main_v34 (F := Ideal) x0 x1 x2 (ix2 e k)) (fun k j => x3 (ix2 k j)) (fun j => x4 (ix1 j)) j := by
  unfold val_main_v39 val_main_v38 val_main_v35 val_main_v37 val_main_v36 val_main_call0_v0 val_main_call0_cst
  generalize val_main_v34 (F := Ideal) x0 x1 x2 = feat
  exact host_layer_apply dot_S6400000x18_S18x32_S6400000x32_1_0_0_1_n_n rfl none feat x3 x4 bcast_S32_S1x32_1
    bcast_S1x32_S6400000x32_0_1 bcast_S_S6400000x32 e j (fun k => feat (ix2 e k)) (fun _ => rfl)

/-- The reference's result at entry `e` is the score of the feature matrix's row `e`. -/
theorem result_apply (x0 : (⟨S100000x8, .f32⟩ : BufTy).Contents (Elt Ideal)) (x1 : (⟨S2x6400000, .i32⟩ : BufTy).Contents (Elt Ideal))
    (x2 : (⟨S100000, .f32⟩ : BufTy).Contents (Elt Ideal)) (x3 : (⟨S18x32, .f32⟩ : BufTy).Contents (Elt Ideal))
    (x4 : (⟨S32, .f32⟩ : BufTy).Contents (Elt Ideal)) (x5 : (⟨S32x1, .f32⟩ : BufTy).Contents (Elt Ideal))
    (x6 : (⟨S1, .f32⟩ : BufTy).Contents (Elt Ideal)) (e : Fin 6400000) :
    val_main_v50 (F := Ideal) x0 x1 x2 x3 x4 x5 x6 (ix1 e)
      = score (fun k => val_main_v34 (F := Ideal) x0 x1 x2 (ix2 e k)) (fun k j => x3 (ix2 k j)) (fun j => x4 (ix1 j))
          (fun j => x5 (ix2 j (0 : Fin 1))) (x6 (ix1 (0 : Fin 1))) := by
  have hi : idx_main_v50 (ix1 e) = ix2 e (0 : Fin 1) := funext fun a => Fin.ext (by
    match a with
    | ⟨0, _⟩ => exact Nat.div_one _
    | ⟨1, _⟩ => rfl)
  have hl : ∀ k : Fin 32, lidx_main_v40 (ix2 e (0 : Fin 1)) k = ix2 e k := fun k => funext fun a => Fin.ext (by
    match a with
    | ⟨0, _⟩ => rfl
    | ⟨1, _⟩ => rfl)
  have hr : ∀ k : Fin 32, ridx_main_v40 (ix2 e (0 : Fin 1)) k = ix2 k (0 : Fin 1) := fun k => funext fun a => Fin.ext (by
    match a with
    | ⟨0, _⟩ => rfl
    | ⟨1, _⟩ => rfl)
  have hb : idx_main_v41 (idx_main_v42 (ix2 e (0 : Fin 1))) = ix1 (0 : Fin 1) := funext fun a => Fin.ext (by
    match a with
    | ⟨0, _⟩ => rfl)
  rw [val_main_v50_apply, hi, val_main_v49_apply, val_main_v48_apply, val_main_cst_7_apply, val_main_v47_apply, val_main_v46_apply,
    val_main_cst_apply, val_main_v45_apply, val_main_v44_apply, val_main_v43_apply, val_main_v40_apply, val_main_v42_apply,
    val_main_v41_apply, hb]
  simp only [hl, hr, hidden_apply]
  show Ideal.div (Ideal.ofBits .f32 0x3F800000#32) (Ideal.ofBits .f32 0x3F800000#32 + Ideal.exp (-(_ + x6 (ix1 (0 : Fin 1))))) = _
  rw [one_f32]
  rfl

end Cert.ReferenceIdeal.Scores

end
-- ==== Proof.FeatureLink.lean ====
/-
  The two programs build one feature matrix.

  Both begin with the same 43 host operations on the embedding table, the edge list and the mask: the two endpoint
  rows of the edge list, a negative index wrapped by adding the table's length, the four gathers, the two mask
  columns and the join along the feature axis.  So the matrix the tiled program's host operations leave for the
  tiles is, as a term of the three argument arrays, the reference's feature matrix.
-/
import proofs.«165301_j42649025249599_1_alg».proof.Proof.KernelIdealTiles
import proofs.«165301_j42649025249599_1_alg».proof.Proof.Gen.ReferenceIdeal.Read

noncomputable section

namespace Cert.FeatureLink

open Idealize.ShloMosaic Idealize.ShloMosaic.TcCoe Idealize.SL.Sem Idealize.ShloMosaic.StableHlo

set_option maxRecDepth 8192 in
set_option maxHeartbeats 4000000 in
/-- The feature matrix the tiles find is the reference's, of the same three arrays. -/
theorem features_agree (m : (ℓ : Loc Cert.KernelIdeal.nD Cert.KernelIdeal.τ Cert.KernelIdeal.sig) → Buf (Elt Ideal) ℓ) (c : Dev Cert.KernelIdeal.nD) :
    (Cert.KernelIdeal.Tiles.entry m c Cert.KernelIdeal.main_v34 : Cert.KernelIdeal.S6400000x18.Idx → EReal)
      = Cert.ReferenceIdeal.Read.val_main_v34 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  dsimp only [Cert.KernelIdeal.Tiles.entry, Cert.KernelIdeal.Gen.hostOps0]
  after_results
  rfl

end Cert.FeatureLink

end
-- ==== Proof.lean ====
/-
  Edge scoring by a two-layer network, tiled, against its plain reference.

  Both programs gather, for each of 6 400 000 edges, the embeddings and mask values of the edge's two endpoints into
  an 18-column feature matrix, by the same host operations.  The reference then scores all rows at once; the tiled
  program scores them 51 200 at a time.  On the extended reals both results hold, at entry `e`,
  `logistic (∑ j, max (∑ k, feat e k · W1 k j + b1 j) 0 · W2 j + b2)`: a tile's matrix products are the whole
  products' rows, the changes of float format are the identity, and the reference's `1 / (1 + e^(-x))` is the
  logistic function.  No law of arithmetic beyond the definitions is needed, so the inputs' finiteness is not used.

  The three frames: each program's run ends with its arguments as launched (the tiled program's, at the word level
  and on the extended reals, from one tile's body and the pipeline's bookkeeping; the reference's from its run).
  The idealization rewrote nothing.
-/
import proofs.«165301_j42649025249599_1_alg».proof.Defs
import proofs.«165301_j42649025249599_1_alg».proof.Proof.Gen.Pre_finite_inputs
import proofs.«165301_j42649025249599_1_alg».proof.Proof.KernelTiles
import proofs.«165301_j42649025249599_1_alg».proof.Proof.KernelIdealScores
import proofs.«165301_j42649025249599_1_alg».proof.Proof.RefScores
import proofs.«165301_j42649025249599_1_alg».proof.Proof.FeatureLink
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Tiles.args_kept (F := Bits) m ρ

theorem frame_kernel_ideal : Cert.frame_KernelIdeal := fun m ρ _ => Cert.KernelIdeal.Tiles.args_kept (F := Ideal) m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the result at all scores of one feature matrix and
    one set of parameters. -/
theorem algebraic : Cert.algebraic_KernelIdeal_ReferenceIdeal := by
  intro m ρ m' ρ' _ hagree
  refine ⟨_, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2.1, (hagree c).2.2.2.2.2.1, (hagree c).2.2.2.2.2.2]
  funext i
  obtain ⟨e, rfl⟩ : ∃ e : Fin 6400000, i = ix1 e := ⟨i 0, eq_ix1 i⟩
  rw [Cert.ReferenceIdeal.Scores.result_apply, ← Cert.FeatureLink.features_agree m c]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
